-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x32000 : Shape := ⟨2, ![512, 32000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x32000 : S_.BroadcastsInDim S512x32000 (![] : Fin 0 → Fin S512x32000.rank)
  reducesTo_S512x32000_S_d0_1 : S512x32000.ReducesTo [0, 1] S_

variable [Facts]

def fn {F : FTy → Type} [FloatOps F] (main_arg0 : FVec F S8192x512 .f32) (main_arg1 : FVec F S512x32000 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x32000 .f32 := Host.absf main_arg1
  let main_cst_0 : FVec F S_ .f32 := constant S_ .f32 0x7F800000#32
  let main_v5 : FVec F S512x32000 .f32 := broadcastInDim S512x32000 ![] bcast_S_S512x32000 main_cst_0
  let main_v6 : IVec S512x32000 1 := cmpf .olt main_v4 main_v5
  let main_c_1 : IVec S_ 1 := constantI S_ 1 1#1
  let main_v7 : IVec S_ 1 := (fun x v => Host.reduce IntOp.andi x v reducesTo_S512x32000_S_d0_1 h_S_) main_v6 main_c_1
  let main_v8 : IVec S_ 1 := andi main_v3 main_v7
  main_v8
-- ==== Kernel.lean ====
abbrev S8192x512 : Shape := ⟨2, ![8192, 512]⟩
abbrev S512x32000 : Shape := ⟨2, ![512, 32000]⟩
abbrev S8192x32000 : Shape := ⟨2, ![8192, 32000]⟩
abbrev S1024x512 : Shape := ⟨2, ![1024, 512]⟩
abbrev S512x1280 : Shape := ⟨2, ![512, 1280]⟩
abbrev S1024x1280 : Shape := ⟨2, ![1024, 1280]⟩
abbrev S1024 : Shape := ⟨1, ![1024]⟩
abbrev S1024x1 : Shape := ⟨2, ![1024, 1]⟩
abbrev S1280 : Shape := ⟨1, ![1280]⟩
abbrev S1x1280 : Shape := ⟨2, ![1, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x32000, .f32⟩
  | .hbm, ⟨2, _⟩ => ⟨S8192x32000, .f32⟩
  | .local _ .vmem, ⟨0, _⟩ => ⟨S1024x512, .f32⟩
  | .local _ .vmem, ⟨1, _⟩ => ⟨S1024x512, .f32⟩
  | .local _ .vmem, ⟨2, _⟩ => ⟨S512x1280, .f32⟩
  | .local _ .vmem, ⟨3, _⟩ => ⟨S512x1280, .f32⟩
  | .local _ .vmem, ⟨4, _⟩ => ⟨S1024x1280, .f32⟩
  | .local _ .vmem, ⟨5, _⟩ => ⟨S1024x1280, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  inb_S512x1280_S512x1280_0_0 : ∀ a, (![0, 0] : Fin 2 → Nat) a + S512x1280.size a ≤ S512x1280.size a
  h_S512x1280 : 0 < S512x1280.numel
  reduces_S1024x512_S1024 : S1024x512.Reduces [1] S1024
  shapeCasts_S1024_S1024x1 : S1024.ShapeCasts S1024x1
  broadcasts_S1024x1_S1024x512 : S1024x1.Broadcasts S1024x512
  reduces_S512x1280_S1280 : S512x1280.Reduces [0] S1280
  shapeCasts_S1280_S1x1280 : S1280.ShapeCasts S1x1280
  broadcasts_S1x1280_S512x1280 : S1x1280.Broadcasts S512x1280
  bitsLt_bf16_f32 : FTy.bits .bf16 < FTy.bits .f32
  inb_S1024x1280_S1024x1280_0_0 : ∀ a, (![0, 0] : Fin 2 → Nat) a + S1024x1280.size a ≤ S1024x1280.size a
  h_S1024x1280 : 0 < S1024x1280.numel
  dot_S1024x512_S512x1280_S1024x1280_1_0_0_1_n_n_wf : DotDims.WF S1024x512 S512x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S512x32000.size a
  hwx0_1 : ∀ i : grid0.Coords, EltTy.bits .f32 = 32 ∨ (Rect.block (s := S512x32000) S512x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1280.size a ≤ S8192x32000.size a
  hwx0_2 : ∀ i : grid0.Coords, EltTy.bits .f32 = 32 ∨ (Rect.block (s := S8192x32000) S1024x1280.size (cc0_transform_2 i) (hinb0_2 i)).WholeWords (EltTy.packing .f32)

variable [Facts₀]

def dot_S1024x512_S512x1280_S1024x1280_1_0_0_1_n_n : DotDims S1024x512 S512x1280 S1024x1280 where
  lhsContracting := [1]
  rhsContracting := [0]
  lhsNonContracting := [0]
  rhsNonContracting := [1]
  lhsBatch := []
  rhsBatch := []
  wf := dot_S1024x512_S512x1280_S1024x1280_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1280.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x32000 : Shape := ⟨2, ![512, 32000]⟩
abbrev S_ : Shape := ⟨0, ![]⟩
abbrev S8192 : Shape := ⟨1, ![8192]⟩
abbrev S8192x1 : Shape := ⟨2, ![8192, 1]⟩
abbrev S32000 : Shape := ⟨1, ![32000]⟩
abbrev S1x32000 : Shape := ⟨2, ![1, 32000]⟩
abbrev S8192x32000 : Shape := ⟨2, ![8192, 32000]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x32000, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S512x32000, .f32⟩
  | .hbm, ⟨13, _⟩ => ⟨S_, .f32⟩
  | .hbm, ⟨14, _⟩ => ⟨S32000, .f32⟩
  | .hbm, ⟨15, _⟩ => ⟨S1x32000, .f32⟩
  | .hbm, ⟨16, _⟩ => ⟨S_, .f32⟩
  | .hbm, ⟨17, _⟩ => ⟨S1x32000, .f32⟩
  | .hbm, ⟨18, _⟩ => ⟨S1x32000, .f32⟩
  | .hbm, ⟨19, _⟩ => ⟨S1x32000, .f32⟩
  | .hbm, ⟨20, _⟩ => ⟨S512x32000, .f32⟩
  | .hbm, ⟨21, _⟩ => ⟨S512x32000, .f32⟩
  | .hbm, ⟨22, _⟩ => ⟨S8192x32000, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S512x32000_S32000_d0 : S512x32000.ReducesTo [0] S32000
  bcast_S32000_S1x32000_1 : S32000.BroadcastsInDim S1x32000 (![1] : Fin 1 → Fin S1x32000.rank)
  bcast_S_S1x32000 : S_.BroadcastsInDim S1x32000 (![] : Fin 0 → Fin S1x32000.rank)
  bcast_S1x32000_S512x32000_0_1 : S1x32000.BroadcastsInDim S512x32000 (![0, 1] : Fin 2 → Fin S512x32000.rank)
  dot_S8192x512_S512x32000_S8192x32000_1_0_0_1_n_n_wf : DotDims.WF S8192x512 S512x32000 S8192x32000 [1] [0] [0] [1] [] []

variable [Facts₀]

def dot_S8192x512_S512x32000_S8192x32000_1_0_0_1_n_n : DotDims S8192x512 S512x32000 S8192x32000 where
  lhsContracting := [1]
  rhsContracting := [0]
  lhsNonContracting := [0]
  rhsNonContracting := [1]
  lhsBatch := []
  rhsBatch := []
  wf := dot_S8192x512_S512x32000_S8192x32000_1_0_0_1_n_n_wf

class Facts : Prop extends Facts₀ where

variable [Facts]
-- ==== Proof.CosineSpec.lean ====
/-
  COSINE SIMILARITY OF ROWS WITH COLUMNS, ON THE EXTENDED REALS (a specification; it mentions no program).

  For x of shape [M, K] and w of shape [K, N] the entry (r, q) is

      sum over c of  ( x(r, c) * s_r ) * ( w(c, q) * t_q ),

  where s_r is the reciprocal square root of the larger of  sum over c of x(r, c)^2  and a fixed floor, and t_q is the
  same for column q of w.  The floor is the single-precision word 0x2B8CBCCC (the float nearest 1e-12) read as its exact
  binary value: the same word on both sides of the comparison, so it is never evaluated.

  The entry depends on row r of x and on column q of w only (`entry_congr`): a block of rows of x against a block of
  columns of w gives the corresponding block of the whole product.
-/
import Idealize.ShloMosaic.PureOps.Ideal
import Idealize.ShloMosaic.Lib.ValueIdx

noncomputable section

open scoped BigOperators

namespace Cert.Cosine

open Idealize.ShloMosaic Idealize.ShloMosaic.ValueIdx

/-- The floor under a squared norm. -/
def floor : EReal := Ideal.ofBits .f32 0x2B8CBCCC#32

variable {M K N : Nat}

/-- The scale of row `r` of `x`: the reciprocal square root of its squared norm, floored. -/
def rowScale (x : (⟨2, ![M, K]⟩ : Shape).Idx → EReal) (r : Fin M) : EReal :=
  Ideal.rsqrt (max (∑ c : Fin K, x (ix2 r c) * x (ix2 r c)) floor)

/-- The scale of column `q` of `w`. -/
def colScale (w : (⟨2, ![K, N]⟩ : Shape).Idx → EReal) (q : Fin N) : EReal :=
  Ideal.rsqrt (max (∑ c : Fin K, w (ix2 c q) * w (ix2 c q)) floor)

/-- Entry `(r, q)`: the scaled row `r` of `x` against the scaled column `q` of `w`. -/
def entry (x : (⟨2, ![M, K]⟩ : Shape).Idx → EReal) (w : (⟨2, ![K, N]⟩ : Shape).Idx → EReal) (r : Fin M) (q : Fin N) : EReal :=
  ∑ c : Fin K, (x (ix2 r c) * rowScale x r) * (w (ix2 c q) * colScale w q)

/-- The whole array of cosine similarities. -/
def cosine (x : (⟨2, ![M, K]⟩ : Shape).Idx → EReal) (w : (⟨2, ![K, N]⟩ : Shape).Idx → EReal) :
    (⟨2, ![M, N]⟩ : Shape).Idx → EReal := fun j => entry x w (j 0) (j 1)

theorem cosine_apply (x : (⟨2, ![M, K]⟩ : Shape).Idx → EReal) (w : (⟨2, ![K, N]⟩ : Shape).Idx → EReal)
    (j : (⟨2, ![M, N]⟩ : Shape).Idx) : cosine x w j = entry x w (j 0) (j 1) := rfl

/-- An entry reads one row of the left array and one column of the right one: if row `r` of `x` is row `r'` of `X` and
    column `q` of `w` is column `q'` of `W`, the two entries agree, whatever the arrays' other extents. -/
theorem entry_congr {M' N' : Nat} (x : (⟨2, ![M, K]⟩ : Shape).Idx → EReal) (X : (⟨2, ![M', K]⟩ : Shape).Idx → EReal)
    (w : (⟨2, ![K, N]⟩ : Shape).Idx → EReal) (W : (⟨2, ![K, N']⟩ : Shape).Idx → EReal)
    (r : Fin M) (r' : Fin M') (q : Fin N) (q' : Fin N')
    (hx : ∀ c : Fin K, x (ix2 r c) = X (ix2 r' c)) (hw : ∀ c : Fin K, w (ix2 c q) = W (ix2 c q')) :
    entry x w r q = entry X W r' q' := by
  unfold entry rowScale colScale
  simp only [hx, hw]

end Cert.Cosine

end
-- ==== Proof.LibKeepdims.lean ====
/-
  Two layout operations of a row reduction kept as a column (`keepdims`), read at an index: a vector `[a]` recast as a
  column `[a, 1]`, and a column `[a, 1]` broadcast along the rows of `[a, b]`.  Composed, entry `(p, c)` of the
  broadcast of the recast vector is entry `p` of the vector.
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An `[a]` array recast as the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector recast as a column and broadcast along the rows reads, at `(p, c)`, the vector at `p`. -/
theorem broadcastTo_shapeCast_column_apply {a b : ℕ} (x : (⟨1, ![a]⟩ : Shape).Idx → α)
    (h : (⟨1, ![a]⟩ : Shape).ShapeCasts ⟨2, ![a, 1]⟩) (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.BlockValue.lean ====
/-
  WHAT ONE GRID POINT COMPUTES.  The body's one stored value, for a block x of 1024 rows of the left array (all 512
  columns) and a block w of 1280 columns of the right array (all 512 rows), is the matrix-unit product, into a zero
  accumulator, of the scaled rows of x with the scaled columns of w.  Read on the extended reals, where narrowing to
  sixteen-bit floats changes nothing, entry (p, q) of that product is

      sum over c of ( x(p, c) * s_p ) * ( w(c, q) * t_q ),

  s_p the reciprocal square root of the floored squared norm of row p of x, t_q that of column q of w: the cosine
  similarity of the two blocks (`Cert.Cosine.cosine`).  The pieces: a sum along one axis as a finite sum over that
  axis's coordinates; the kept-dimension recast and the broadcast back read at an index; the product as the sum over
  the one contracted coordinate.
-/
import proofs.«172842_j32057635897558_1_alg».proof.Proof.Gen.KernelIdeal.Skeleton
import proofs.«172842_j32057635897558_1_alg».proof.Proof.CosineSpec
import proofs.«172842_j32057635897558_1_alg».proof.Proof.LibKeepdims
import proofs.«172842_j32057635897558_1_alg».proof.Proof.LibRowsByCols
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Cosine

/-- A sum along axis 1 of an `[a, b]` array, at row `r`: the sum over the columns of that row. -/
theorem sum_axis1_apply {a b : Nat} (v : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ c : Fin b, v (ix2 r c) :=
  (Ideal.multiReduction_add_single v _ h hφ hacc (ix1 r)).trans
    (Finset.sum_congr rfl fun c _ => congrArg v (funext fun ax => Fin.ext (by
      match ax with
      | ⟨0, _⟩ => rfl
      | ⟨1, _⟩ => rfl)))

/-- A sum along axis 0 of an `[a, b]` array, at column `q`: the sum over the rows of that column. -/
theorem sum_axis0_apply {a b : Nat} (v : FVec Ideal (⟨2, ![a, b]⟩ : Shape) .f32)
    (h : (⟨2, ![a, b]⟩ : Shape).Reduces [0] ⟨1, ![b]⟩) (hφ : FKind.Formats .f32)
    (hacc : (0x00000000#32 : BitVec 32) = FKind.add.neutral .f32 hφ) (q : Fin b) :
    multiReduction .add [0] ⟨1, ![b]⟩ v 0x00000000#32 h hφ hacc (ix1 q) = ∑ c : Fin a, v (ix2 c q) :=
  (Ideal.multiReduction_add_single v _ h hφ hacc (ix1 q)).trans
    (Finset.sum_congr rfl fun c _ => congrArg v (funext fun ax => Fin.ext (by
      match ax with
      | ⟨0, _⟩ => rfl
      | ⟨1, _⟩ => rfl)))

/-- The rows of `x`, each scaled by the reciprocal square root of its floored squared norm, at `(p, c)`. -/
theorem scaledRows_apply {a b : Nat} (x : FVec Ideal (⟨2, ![a, b]⟩ : Shape) .f32)
    (hr : (⟨2, ![a, b]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    mulf x (broadcastTo ⟨2, ![a, b]⟩ (rsqrt (maximumf
        (shapeCast ⟨2, ![a, 1]⟩ (multiReduction .add [1] ⟨1, ![a]⟩ (mulf x x) 0x00000000#32 hr hφ hacc) hc)
        (broadcast ⟨2, ![a, 1]⟩ (Scalar.ofBits (F := Ideal) .f32 0x2B8CBCCC#32)))) hb) (ix2 p c)
      = x (ix2 p c) * rowScale x p := by
  show x (ix2 p c) * broadcastTo ⟨2, ![a, b]⟩ _ hb (ix2 p c) = _
  rw [Cert.LibKeepdims.broadcastTo_a1_ab_apply]
  show x (ix2 p c) * Ideal.rsqrt (max (shapeCast ⟨2, ![a, 1]⟩ _ hc (ix2 p (0 : Fin 1))) (Ideal.ofBits .f32 0x2B8CBCCC#32)) = _
  rw [Cert.LibKeepdims.shapeCast_a_a1_apply, sum_axis1_apply]
  rfl

/-- The columns of `w`, each scaled by the reciprocal square root of its floored squared norm, at `(c, q)`. -/
theorem scaledCols_apply {a b : Nat} (w : FVec Ideal (⟨2, ![a, b]⟩ : Shape) .f32)
    (hr : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (hb : (⟨2, ![1, b]⟩ : Shape).Broadcasts ⟨2, ![a, b]⟩)
    (c : Fin a) (q : Fin b) :
    mulf w (broadcastTo ⟨2, ![a, b]⟩ (rsqrt (maximumf
        (shapeCast ⟨2, ![1, b]⟩ (multiReduction .add [0] ⟨1, ![b]⟩ (mulf w w) 0x00000000#32 hr hφ hacc) hc)
        (broadcast ⟨2, ![1, b]⟩ (Scalar.ofBits (F := Ideal) .f32 0x2B8CBCCC#32)))) hb) (ix2 c q)
      = w (ix2 c q) * colScale w q := by
  show w (ix2 c q) * broadcastTo ⟨2, ![a, b]⟩ _ hb (ix2 c q) = _
  rw [broadcastTo_1b_ab_apply]
  show w (ix2 c q) * Ideal.rsqrt (max (shapeCast ⟨2, ![1, b]⟩ _ hc (ix2 (0 : Fin 1) q)) (Ideal.ofBits .f32 0x2B8CBCCC#32)) = _
  rw [shapeCast_a_1a_apply, sum_axis0_apply]
  rfl

/-- The body's product contracts the left operand's columns with the right operand's rows, nothing else. -/
theorem plain : Cert.Lib.RowsByCols.Plain dot_S1024x512_S512x1280_S1024x1280_1_0_0_1_n_n := ⟨rfl, rfl, rfl, rfl, rfl, rfl⟩

/-- THE BODY'S STORED VALUE is the cosine similarity of its two loaded blocks. -/
theorem payload_eq (x0 : FVec Ideal S1024x512 .f32) (x1 : FVec Ideal S512x1280 .f32) :
    k0_pay1 (F := Ideal) x0 x1 = cosine x0 x1 := by
  funext j
  obtain ⟨p, q, rfl⟩ : ∃ (p : Fin 1024) (q : Fin 1280), j = ix2 p q := ⟨j 0, j 1, eq_ix2 j⟩
  unfold k0_pay1
  refine (Cert.Lib.RowsByCols.matmul_zero_apply plain none _ _ (ix2 p q)).trans ?_
  show _ = entry x0 x1 p q
  unfold entry
  refine Finset.sum_congr rfl fun c _ => ?_
  exact congrArg₂ (· * ·) (scaledRows_apply x0 _ _ _ _ _ p c) (scaledCols_apply x1 _ _ _ _ _ c q)

end Cert.KernelIdeal.BlockValue

end
-- ==== Proof.KernelValue.lean ====
/-
  FROM BLOCKS TO THE ARRAY.  The grid has 8 x 25 points.  Point (i, j) is given rows 1024 i .. 1024 i + 1023 of the left
  array (all columns) and columns 1280 j .. 1280 j + 1279 of the right array (all rows), and writes back block (i, j) of
  the result.  An entry of the cosine-similarity array reads one row of the left array and one column of the right one,
  so what the point computes from its two blocks is block (i, j) of the cosine similarity of the WHOLE arrays.  The 200
  blocks tile the [8192, 32000] result, so after the run the result array is that function everywhere.
-/
import proofs.«172842_j32057635897558_1_alg».proof.Proof.Gen.KernelIdeal.Value
import proofs.«172842_j32057635897558_1_alg».proof.Proof.BlockValue

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.Cosine
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The three index maps over the grid: the left block moves with the result's row block and spans the columns, the
    right block moves with the result's column block and spans the rows; the result's block indices stay in range. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 24 :=
  (by decide +kernel : ∀ t : Fin grid0.N, _)

/-- Every block of the result is some point's. -/
theorem block_onto : ∀ (q0 : Fin 8) (q1 : Fin 25), ∃ t : Fin cfg0.N, win0_2.index t = ![q0.val, q1.val] :=
  (by decide +kernel : ∀ (q0 : Fin 8) (q1 : Fin 25), ∃ t : Fin grid0.N, win0_2.index t = ![q0.val, q1.val])

/-- WHAT POINT `t` WRITES BACK is block `t` of the cosine similarity of the whole argument arrays. -/
theorem flushed_eq (c : Dev nD) (t : Fin cfg0.N) :
    (dats m 0 c).flushed 2 t
      = ((cfg0.win 2).blk t).view.read (Elt Ideal) (cosine (V m c main_arg0) (V m c main_arg1)) := by
  rw [Cert.KernelIdeal.Value.flushed2]
  unfold out0_2
  rw [View.canon_unit_zero origin_zero]
  simp only [View.ld_unit_zero (S := S1024x512) origin_zero, View.ld_unit_zero (S := S512x1280) origin_zero]
  funext j
  show k0_pay1 (F := Ideal) (iblk m c 0 t) (iblk m c 1 t) j
      = cosine (V m c main_arg0) (V m c main_arg1) (((cfg0.win 2).blk t).view.emb j)
  refine (congrFun (BlockValue.payload_eq (iblk m c 0 t) (iblk m c 1 t)) j).trans ?_
  obtain ⟨e0, e1, e2, e3, e4, e5⟩ := block_indices t
  refine entry_congr (iblk m c 0 t) (V m c main_arg0) (iblk m c 1 t) (V m c main_arg1) (j 0)
    ((((cfg0.win 2).blk t).view.emb j) 0) (j 1) ((((cfg0.win 2).blk t).view.emb j) 1) (fun k => ?_) (fun k => ?_)
  · show V m c main_arg0 (((cfg0.win 0).blk t).view.emb (ix2 (j 0) k))
        = V m c main_arg0 (ix2 ((((cfg0.win 2).blk t).view.emb j) 0) k)
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 512 + 1 * k.val = k.val
      omega
  · show V m c main_arg1 (((cfg0.win 1).blk t).view.emb (ix2 k (j 1)))
        = V m c main_arg1 (ix2 k ((((cfg0.win 2).blk t).view.emb j) 1))
    refine congrArg (V m c main_arg1) (funext fun a => Fin.ext ?_)
    match a with
    | ⟨0, _⟩ =>
      show win0_1.index t (0 : Fin 2) * 512 + 1 * k.val = k.val
      omega
    | ⟨1, _⟩ =>
      show win0_1.index t (1 : Fin 2) * 1280 + 1 * (j 1).val = win0_2.index t (1 : Fin 2) * 1280 + 1 * (j 1).val
      omega

/-- An index of the result array is in point `t`'s block iff each coordinate is in the block's range on its axis. -/
theorem mem_block (t : Fin cfg0.N) (i : S8192x32000.Idx) :
    i ∈ ((cfg0.win 2).blk t).view.set ↔ ∀ a : Fin 2, win0_2.index t a * S1024x1280.size a ≤ (i a).val
      ∧ (i a).val < win0_2.index t a * S1024x1280.size a + S1024x1280.size a := by
  show i ∈ ((View.whole main_v0).slice (win0_2.rect t)).set ↔ _
  rw [View.set_slice_whole, Rect.mem_set_unit]
  exact Iff.rfl

/-- The blocks tile the result: entry (r, q) lies in the block of the point whose block indices are
    (r / 1024, q / 1280). -/
theorem covered (i : S8192x32000.Idx) :
    ∃ t : Fin cfg0.N, (cfg0.win 2).flush t = true ∧ i ∈ ((cfg0.win 2).blk t).view.set := by
  have hi0 : (i 0).val < 8192 := (i 0).isLt
  have hi1 : (i 1).val < 32000 := (i 1).isLt
  obtain ⟨t, ht⟩ := block_onto ⟨(i 0).val / 1024, by omega⟩ ⟨(i 1).val / 1280, by omega⟩
  have q0 : win0_2.index t (0 : Fin 2) = (i 0).val / 1024 := congrFun ht 0
  have q1 : win0_2.index t (1 : Fin 2) = (i 1).val / 1280 := congrFun ht 1
  refine ⟨t, flush0_2 t, ?_⟩
  rw [mem_block]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1280 ≤ (i 1).val ∧ (i 1).val < win0_2.index t (1 : Fin 2) * 1280 + 1280
    omega

/-- THE RESULT ARRAY after the run is the cosine similarity of the argument arrays. -/
theorem final (c : Dev nD) :
    (dats m 0 c).arrAt 2 cfg0.N
      = cosine (m ((c.tc : Thread nD τ).loc main_arg0)) (m ((c.tc : Thread nD τ).loc main_arg1)) :=
  (dats m 0 c).arrAt_eq_of_cover 2 (cosine (V m c main_arg0) (V m c main_arg1)) (fun t _ => flushed_eq m c t) covered

/-- The run, read: the result at the cosine similarity of the arguments, the arguments unchanged. -/
theorem run : θ_run defs (onTc (τ := τ) (main (F := Ideal))) ⟨m, fun _ => 0, ρ⟩ fun r => ∀ c : Dev nD,
      r.2.mem ((c.tc : Thread nD τ).loc main_v0)
        = cosine (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.ReferenceValue.lean ====
/-
  THE REFERENCE COMPUTES THE COSINE SIMILARITY OF THE WHOLE ARRAYS.  Read one operation at a time on the extended
  reals: the squares summed along a row (from a zero initial value, which adds nothing), floored, under the reciprocal
  square root, broadcast back along the row and multiplied into x; the same along the columns of w; and the general dot
  product of the two scaled arrays as the sum over the one contracted coordinate.  Entry (p, q) is therefore

      sum over c of ( x(p, c) * s_p ) * ( w(c, q) * t_q ),

  which is `Cert.Cosine.cosine x w` at (p, q).
-/
import proofs.«172842_j32057635897558_1_alg».proof.Proof.Gen.ReferenceIdeal.Read
import proofs.«172842_j32057635897558_1_alg».proof.Proof.CosineSpec

noncomputable section

open scoped BigOperators

namespace Cert.ReferenceIdeal.RefValue

open Cert.ReferenceIdeal Cert.ReferenceIdeal.Gen Cert.ReferenceIdeal.Read Idealize.ShloMosaic Idealize.ShloMosaic.ValueIdx Cert.Cosine

/-- The scaled left array at `(p, c)`: the entry times the scale of its row. -/
theorem scaledRows_apply (x0 : (⟨S8192x512, .f32⟩ : BufTy).Contents (Elt Ideal)) (p : Fin 8192) (c : Fin 512) :
    val_main_v7 (F := Ideal) x0 (ix2 p c) = x0 (ix2 p c) * rowScale x0 p := by
  have e : ∀ k : Fin 512, idx_main_v1 (idx_main_v2 (idx_main_v6 (ix2 p c))) k = ix2 p k := fun k =>
    funext fun a => Fin.ext (by
      match a with
      | ⟨0, _⟩ => rfl
      | ⟨1, _⟩ => rfl)
  rw [val_main_v7_apply, val_main_v6_apply, val_main_v5_apply, val_main_v4_apply, val_main_v2_apply, val_main_v3_apply,
    val_main_cst_0_apply, val_main_v1_apply, val_main_cst_apply]
  simp only [val_main_v0_apply, e, Ideal.mulf_def, Ideal.hostUnary_rsqrt_def, Ideal.maximumf_def, Ideal.ofBits_def,
    Ideal.ofBits_zero_f32, zero_add]
  rfl

/-- The scaled right array at `(c, q)`: the entry times the scale of its column. -/
theorem scaledCols_apply (x1 : (⟨S512x32000, .f32⟩ : BufTy).Contents (Elt Ideal)) (c : Fin 512) (q : Fin 32000) :
    val_main_v15 (F := Ideal) x1 (ix2 c q) = x1 (ix2 c q) * colScale x1 q := by
  have e : ∀ k : Fin 512, idx_main_v9 (idx_main_v10 (idx_main_v14 (ix2 c q))) k = ix2 k q := fun k =>
    funext fun a => Fin.ext (by
      match a with
      | ⟨0, _⟩ => rfl
      | ⟨1, _⟩ => rfl)
  rw [val_main_v15_apply, val_main_v14_apply, val_main_v13_apply, val_main_v12_apply, val_main_v10_apply, val_main_v11_apply,
    val_main_cst_2_apply, val_main_v9_apply, val_main_cst_1_apply]
  simp only [val_main_v8_apply, e, Ideal.mulf_def, Ideal.hostUnary_rsqrt_def, Ideal.maximumf_def, Ideal.ofBits_def,
    Ideal.ofBits_zero_f32, zero_add]
  rfl

/-- THE REFERENCE'S RESULT is the cosine similarity of its two arguments. -/
theorem result_eq (x0 : (⟨S8192x512, .f32⟩ : BufTy).Contents (Elt Ideal)) (x1 : (⟨S512x32000, .f32⟩ : BufTy).Contents (Elt Ideal)) :
    val_main_v16 (F := Ideal) x0 x1 = cosine x0 x1 := by
  funext i
  obtain ⟨p, q, rfl⟩ : ∃ (p : Fin 8192) (q : Fin 32000), i = ix2 p q := ⟨i 0, i 1, eq_ix2 i⟩
  rw [val_main_v16_apply]
  show _ = entry x0 x1 p q
  unfold entry
  refine Finset.sum_congr rfl fun c _ => ?_
  have el : lidx_main_v16 (ix2 p q) c = ix2 p c := funext fun a => Fin.ext (by
    match a with
    | ⟨0, _⟩ => rfl
    | ⟨1, _⟩ => rfl)
  have er : ridx_main_v16 (ix2 p q) c = ix2 c q := funext fun a => Fin.ext (by
    match a with
    | ⟨0, _⟩ => rfl
    | ⟨1, _⟩ => rfl)
  rw [el, er, scaledRows_apply, scaledCols_apply]

end Cert.ReferenceIdeal.RefValue

end
-- ==== Proof.lean ====
/-
  COSINE SIMILARITY BY A TILED KERNEL AGAINST THE PLAIN FORMULA.

  Both programs take x : [8192, 512] and w : [512, 32000] and return the [8192, 32000] array whose entry (r, q) is

      sum over c of ( x(r, c) * s_r ) * ( w(c, q) * t_q ),

  s_r the reciprocal square root of  max( sum_c x(r, c)^2 , floor ),  t_q that of  max( sum_c w(c, q)^2 , floor ),  with
  the same single-precision floor word on both sides.  The reference computes this with whole-array operations and one
  general dot product.  The kernel walks an 8 x 25 grid; at point (i, j) it holds 1024 whole rows of x and 1280 whole
  columns of w, scales them, narrows them to sixteen-bit floats (the identity on the extended reals) and multiplies
  them on the matrix unit into a zero accumulator.  Since an entry reads only its own row of x and its own column of w,
  each point writes exactly its block of the formula above, and the blocks tile the result.

  No law of arithmetic is needed beyond reading each operation at an index: the two sides are the same sum, term by
  term, so finiteness of the inputs is never used.  The kernel was printed for the extended reals with no rewrite, so
  the statement that relates the two printings of the kernel is trivial.
-/
import proofs.«172842_j32057635897558_1_alg».proof.Defs
import proofs.«172842_j32057635897558_1_alg».proof.Proof.Gen.Kernel
import proofs.«172842_j32057635897558_1_alg».proof.Proof.Gen.Kernel.Skeleton
import proofs.«172842_j32057635897558_1_alg».proof.Proof.Gen.Kernel.Launch
import proofs.«172842_j32057635897558_1_alg».proof.Proof.Gen.Kernel.Points
import proofs.«172842_j32057635897558_1_alg».proof.Proof.Gen.Kernel.Frame
import proofs.«172842_j32057635897558_1_alg».proof.Proof.Gen.KernelIdeal
import proofs.«172842_j32057635897558_1_alg».proof.Proof.Gen.KernelIdeal.Skeleton
import proofs.«172842_j32057635897558_1_alg».proof.Proof.Gen.KernelIdeal.Launch
import proofs.«172842_j32057635897558_1_alg».proof.Proof.Gen.KernelIdeal.Points
import proofs.«172842_j32057635897558_1_alg».proof.Proof.Gen.KernelIdeal.Frame
import proofs.«172842_j32057635897558_1_alg».proof.Proof.Gen.ReferenceIdeal
import proofs.«172842_j32057635897558_1_alg».proof.Proof.Gen.Pre_finite_inputs
import proofs.«172842_j32057635897558_1_alg».proof.Proof.Gen.KernelIdeal.Value
import proofs.«172842_j32057635897558_1_alg».proof.Proof.Gen.ReferenceIdeal.Run
import proofs.«172842_j32057635897558_1_alg».proof.Proof.Gen.ReferenceIdeal.Read
import proofs.«172842_j32057635897558_1_alg».proof.Proof.KernelValue
import proofs.«172842_j32057635897558_1_alg».proof.Proof.ReferenceValue
import Idealize.ShloMosaic.Adequacy
import Idealize.ShloMosaic.Init

noncomputable section

namespace Cert.Proof

open Idealize.ShloMosaic Idealize.SL.Sem Cert.Cosine

/-- The kernel as printed runs and leaves its arguments alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals both programs end with the cosine similarity of the arguments they agree on. -/
theorem algebraic : Cert.algebraic_KernelIdeal_ReferenceIdeal := by
  intro m ρ m' ρ' _ hagree
  refine ⟨fun c => cosine (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
